-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S4096x4096 : Shape := ⟨2, ![4096, 4096]⟩
abbrev S512x4096 : Shape := ⟨2, ![512, 4096]⟩
abbrev S4096x256 : Shape := ⟨2, ![4096, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x256, .i32⟩
  | .local _ .vmem, ⟨3, _⟩ => ⟨S4096x256, .i32⟩
  | .local _ .vmem, ⟨4, _⟩ => ⟨S512x256, .f32⟩
  | .local _ .vmem, ⟨5, _⟩ => ⟨S512x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .i32 = 32 ∨ (Rect.block (s := S4096x4096) S4096x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x4096.size a
  hwx0_2 : ∀ i : grid0.Coords, EltTy.bits .f32 = 32 ∨ (Rect.block (s := S8192x4096) S512x256.size (cc0_transform_2 i) (hinb0_2 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x4096, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, stated once over the whole arrays.

  The operator is a dense layer with integer weights: for a token matrix `x` (8192 rows of 4096 extended reals) and a
  weight matrix `w` (4096 × 4096 signed 32-bit words), entry (r, c) of the result is

      Σ_{k < 4096}  x[r, k] · w[k, c]

  where a weight word stands for the integer it denotes as a signed number. At the exact values a conversion of an
  integer to a float of ANY format is that integer, and a change of float format is the identity, so neither the
  kernel's detour through a narrower float format nor the reference's conversion to the wide format leaves a trace:
  both sides are this one sum, term for term. No law of arithmetic beyond "the same terms summed over the same index
  set" is used, so nothing here needs the inputs to be finite.
-/
import Idealize.ShloMosaic.PureOps.Ideal
import Idealize.ShloMosaic.Lib.ValueIdx

noncomputable section

namespace Cert.IntWeightProduct

open Idealize.ShloMosaic Idealize.ShloMosaic.ValueIdx

/-- The signed integer a weight word denotes, as an extended real. -/
abbrev weight (b : BitVec 32) : EReal := ((b.toInt : ℝ) : EReal)

/-- Row `r` of the tokens against column `c` of the weights, for matrices of any extents: the sum over the shared
    axis of token entry times weight. Stated over coordinates so that a block of the arrays and the arrays
    themselves are instances of the same expression. -/
def rowDotCol {R K C : Nat} (x : (⟨2, ![R, K]⟩ : Shape).Idx → EReal) (w : (⟨2, ![K, C]⟩ : Shape).Idx → BitVec 32)
    (r : Fin R) (c : Fin C) : EReal :=
  ∑ k : Fin K, x (ix2 r k) * weight (w (ix2 k c))

/-- The whole result: entry `i = (r, c)` is row `r` of `x` against column `c` of `w`. -/
def product (x : (⟨2, ![8192, 4096]⟩ : Shape).Idx → EReal) (w : (⟨2, ![4096, 4096]⟩ : Shape).Idx → BitVec 32) :
    (⟨2, ![8192, 4096]⟩ : Shape).Idx → EReal :=
  fun i => rowDotCol x w (i 0) (i 1)

theorem product_apply (x : (⟨2, ![8192, 4096]⟩ : Shape).Idx → EReal) (w : (⟨2, ![4096, 4096]⟩ : Shape).Idx → BitVec 32)
    (i : (⟨2, ![8192, 4096]⟩ : Shape).Idx) :
    product x w i = ∑ k : Fin 4096, x (ix2 (i 0) k) * weight (w (ix2 k (i 1))) := rfl

end Cert.IntWeightProduct

end
-- ==== Proof.ReferenceAsProduct.lean ====
/-
  The reference, read at an index, is the specification.

  The reference converts the weight words to floats and multiplies the token matrix by the result with one
  `dot_general` contracting the tokens' column axis with the weights' row axis. At the exact values entry (r, c) of
  that product is the sum over k of x[r, k] times the converted w[k, c], and the conversion of a word is the signed
  integer it denotes: that is `product x w` entry by entry. The only work is to see that the operand indices the
  dimension numbers produce are (r, k) and (k, c).
-/
import proofs.«150332_j20306605376070_1_alg».proof.Proof.Gen.ReferenceIdeal.Read
import proofs.«150332_j20306605376070_1_alg».proof.Proof.Spec

noncomputable section

namespace Cert.ReferenceIdeal.AsProduct

open Cert.ReferenceIdeal Cert.ReferenceIdeal.Gen Cert.ReferenceIdeal.Read
open Idealize.ShloMosaic Idealize.ShloMosaic.ValueIdx Cert.IntWeightProduct

/-- The left operand's index for output (r, c) and contraction position k is (r, k). -/
theorem left_index (i : S8192x4096.Idx) (k : Fin 4096) : lidx_main_v1 i k = ix2 (i 0) k :=
  funext fun a => Fin.ext (by match a with | ⟨0, _⟩ => rfl | ⟨1, _⟩ => rfl)

/-- The right operand's index for output (r, c) and contraction position k is (k, c). -/
theorem right_index (i : S8192x4096.Idx) (k : Fin 4096) : ridx_main_v1 i k = ix2 k (i 1) :=
  funext fun a => Fin.ext (by match a with | ⟨0, _⟩ => rfl | ⟨1, _⟩ => rfl)

/-- The reference's result, as a function of the two argument arrays, is the specification. -/
theorem reference_is_product (x : (⟨S8192x4096, .f32⟩ : BufTy).Contents (Elt Ideal))
    (w : (⟨S4096x4096, .i32⟩ : BufTy).Contents (Elt Ideal)) :
    val_main_v1 (F := Ideal) x w = product x w := by
  funext i
  rw [val_main_v1_apply, product_apply]
  refine Finset.sum_congr rfl fun k _ => ?_
  rw [val_main_v0_apply, left_index, right_index]
  rfl

end Cert.ReferenceIdeal.AsProduct

end
-- ==== Proof.KernelBlock.lean ====
/-
  What the kernel body computes from one pair of blocks, read at an index.

  At a grid point the body holds a 512 × 4096 block of tokens and a 4096 × 256 block of weight words. It narrows the
  tokens' float format (the identity at the exact values), converts the weight words to floats (each becomes the
  signed integer it denotes, whatever the target format), and multiplies the two into a zero accumulator. Entry
  (p, q) of the 512 × 256 result is therefore the sum over k of tokens[p, k] times weight[k, q]: row p of the token
  block against column q of the weight block, `rowDotCol` of the specification at the block's extents.

  The product's dimension numbers contract axis 1 of the left operand with axis 0 of the right; the four lemmas below
  read the operand indices off those numbers, one axis each, and the sum over the contraction shape's one axis is
  re-indexed to a sum over `Fin 4096`.
-/
import proofs.«150332_j20306605376070_1_alg».proof.Proof.Gen.KernelIdeal.Skeleton
import proofs.«150332_j20306605376070_1_alg».proof.Proof.Spec
import Idealize.ShloMosaic.PureOps.Ideal.Laws
import Idealize.ShloMosaic.Lib.ValueIdx

noncomputable section

namespace Cert.KernelIdeal.BlockProduct

open Cert.KernelIdeal Cert.KernelIdeal.Gen
open Idealize.ShloMosaic Idealize.ShloMosaic.ValueIdx Cert.IntWeightProduct

/-- Left operand, axis 0 (rows): the output's row. -/
theorem left_axis0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl

/-- Left operand, axis 1 (contracted): the contraction position. -/
theorem left_axis1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q

/-- Right operand, axis 0 (contracted): the contraction position. -/
theorem right_axis0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q

/-- Right operand, axis 1 (columns): the output's column. -/
theorem right_axis1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Entry (p, q) of the body's result is row p of the token block against column q of the weight block. -/
theorem payload_apply (tokens : Vec Ideal S512x4096 .f32) (words : Vec Ideal S4096x256 .i32) (p : Fin 512) (q : Fin 256) :
    k0_pay1 (F := Ideal) tokens words (ix2 p q) = rowDotCol tokens words p q := by
  unfold k0_pay1 rowDotCol
  simp only [matmul]
  rw [Ideal.matmul_constant_zero_apply, ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p q) ((contrEquiv1 dot_S512x4096_S4096x256_S512x256_1_0_0_1_n_n 4096 rfl rfl).symm k) = ix2 p k := funext fun a => Fin.ext (by
    match a with
    | ⟨0, _⟩ => exact left_axis0 _ _
    | ⟨1, _⟩ => exact (left_axis1 _ _).trans hk)
  have er : dot_S512x4096_S4096x256_S512x256_1_0_0_1_n_n.rhsIdx (ix2 p q) ((contrEquiv1 dot_S512x4096_S4096x256_S512x256_1_0_0_1_n_n 4096 rfl rfl).symm k) = ix2 k q := funext fun a => Fin.ext (by
    match a with
    | ⟨0, _⟩ => exact (right_axis0 _ _).trans hk
    | ⟨1, _⟩ => exact right_axis1 _ _)
  rw [el, er]
  rfl

/-- The same at an index of the result block given as a whole rather than by its two coordinates. -/
theorem payload_at (tokens : Vec Ideal S512x4096 .f32) (words : Vec Ideal S4096x256 .i32) (j : S512x256.Idx) :
    k0_pay1 (F := Ideal) tokens words j = rowDotCol tokens words (j 0) (j 1) :=
  (congrArg (k0_pay1 (F := Ideal) tokens words) (eq_ix2 j)).trans (payload_apply tokens words (j 0) (j 1))

end Cert.KernelIdeal.BlockProduct

end
-- ==== Proof.KernelValue.lean ====
/-
  From blocks to the whole array: after the kernel's run the result array is the specification.

  The grid is 16 × 16, walked row-major: point t works on row block t / 16 and column block t % 16. There it reads
  rows [512·(t/16), 512·(t/16) + 512) of the tokens, all 4096 columns, and columns [256·(t%16), 256·(t%16) + 256) of
  the weights, all 4096 rows, and writes the 512 × 256 block of the result at (t/16, t%16). By the block lemma the
  entry it writes at local position (p, q) is row p of its token block against column q of its weight block; those
  are row 512·(t/16) + p of the whole token matrix and column 256·(t%16) + q of the whole weight matrix, because the
  shared axis is not cut (both blocks hold all 4096 positions of it, at offset 0). So what point t writes back is
  block t of `product tokens weights`.

  Every index (r, c) of the 8192 × 4096 result lies in the block of the point (r / 512)·16 + c / 256, and every point
  writes its block back, so the blocks cover the array and the array ends holding `product` everywhere.
-/
import proofs.«150332_j20306605376070_1_alg».proof.Proof.Gen.KernelIdeal.Value
import proofs.«150332_j20306605376070_1_alg».proof.Proof.KernelBlock

noncomputable section

namespace Cert.KernelIdeal.WholeProduct

open Cert.KernelIdeal Cert.KernelIdeal.Gen Cert.KernelIdeal.BlockProduct
open Idealize.ShloMosaic Idealize.ShloMosaic.TcCoe Idealize.SL.Sem Idealize.ShloMosaic.ValueIdx Cert.IntWeightProduct
open Idealize.ShloMosaic.Pipeline (Dat)

variable (m : (ℓ : Loc nD τ sig) → Buf (Elt Ideal) ℓ) (ρ : Dev nD → PrngReg)

/-- The token matrix as the region finds it. -/
abbrev tokenArr (c : Dev nD) : Vec Ideal S8192x4096 .f32 := V m c main_arg0
/-- The weight words as the region finds them. -/
abbrev wordArr (c : Dev nD) : Vec Ideal S4096x4096 .i32 := V m c main_arg1
/-- The token block of point `t`. -/
abbrev tokenBlock (c : Dev nD) (t : Fin cfg0.N) : Vec Ideal S512x4096 .f32 := iblk m c 0 t
/-- The weight block of point `t`. -/
abbrev wordBlock (c : Dev nD) (t : Fin cfg0.N) : Vec Ideal S4096x256 .i32 := iblk m c 1 t

theorem origin : (![0, 0] : Fin 2 → Nat) = fun _ => 0 := funext fun a => by fin_cases a <;> rfl

/-- The three index maps over the 256 grid points: the result's block is (t / 16, t % 16), the tokens' is
    (t / 16, 0), the weights' is (0, t % 16). -/
theorem block_indices : ∀ t : Fin cfg0.N,
    win0_2.index t (0 : Fin 2) = t.val / 16 ∧ win0_2.index t (1 : Fin 2) = t.val % 16
    ∧ win0_0.index t (0 : Fin 2) = t.val / 16 ∧ win0_0.index t (1 : Fin 2) = 0
    ∧ win0_1.index t (0 : Fin 2) = 0 ∧ win0_1.index t (1 : Fin 2) = t.val % 16 :=
  (by decide +kernel : ∀ t : Fin grid0.N, _)

/-- Local row `p`, position `k` of point `t`'s token block is row 512·(t/16) + p, position k of the token matrix. -/
theorem tokenBlock_apply (c : Dev nD) (t : Fin cfg0.N) (p : Fin 512) (k : Fin 4096) (r : Fin 8192)
    (hr : r.val = t.val / 16 * 512 + p.val) :
    tokenBlock m c t (ix2 p k) = tokenArr m c (ix2 r k) := by
  obtain ⟨-, -, e00, e01, -, -⟩ := block_indices t
  show V m c main_arg0 (((cfg0.win 0).blk t).view.emb (ix2 p k)) = V m c main_arg0 (ix2 r k)
  refine congrArg _ (funext fun a => Fin.ext ?_)
  match a with
  | ⟨0, _⟩ => show win0_0.index t (0 : Fin 2) * 512 + 1 * p.val = r.val; omega
  | ⟨1, _⟩ => show win0_0.index t (1 : Fin 2) * 4096 + 1 * k.val = k.val; omega

/-- Position `k`, local column `q` of point `t`'s weight block is position k, column 256·(t%16) + q of the weights. -/
theorem wordBlock_apply (c : Dev nD) (t : Fin cfg0.N) (k : Fin 4096) (q : Fin 256) (col : Fin 4096)
    (hc : col.val = t.val % 16 * 256 + q.val) :
    wordBlock m c t (ix2 k q) = wordArr m c (ix2 k col) := by
  obtain ⟨-, -, -, -, e10, e11⟩ := block_indices t
  show V m c main_arg1 (((cfg0.win 1).blk t).view.emb (ix2 k q)) = V m c main_arg1 (ix2 k col)
  refine congrArg _ (funext fun a => Fin.ext ?_)
  match a with
  | ⟨0, _⟩ => show win0_1.index t (0 : Fin 2) * 4096 + 1 * k.val = k.val; omega
  | ⟨1, _⟩ => show win0_1.index t (1 : Fin 2) * 256 + 1 * q.val = col.val; omega

/-- Local position `j` of point `t`'s result block sits at (512·(t/16) + j₀, 256·(t%16) + j₁) in the result. -/
theorem result_index (t : Fin cfg0.N) (j : S512x256.Idx) :
    ((((cfg0.win 2).blk t).view.emb j) 0).val = t.val / 16 * 512 + (j 0).val
    ∧ ((((cfg0.win 2).blk t).view.emb j) 1).val = t.val % 16 * 256 + (j 1).val := by
  obtain ⟨e20, e21, -, -, -, -⟩ := block_indices t
  constructor
  · show win0_2.index t (0 : Fin 2) * 512 + 1 * (j 0).val = _; omega
  · show win0_2.index t (1 : Fin 2) * 256 + 1 * (j 1).val = _; omega

/-- What point `t` writes back is block `t` of the specification of the arrays as the region finds them. -/
theorem flushed_is_block (c : Dev nD) (t : Fin cfg0.N) :
    (dats m 0 c).flushed 2 t
      = ((cfg0.win 2).blk t).view.read (Elt Ideal) (product (tokenArr m c) (wordArr m c)) := by
  rw [Cert.KernelIdeal.Value.flushed2]
  unfold out0_2
  rw [View.canon_unit_zero origin]
  simp only [View.ld_unit_zero (S := S512x4096) origin, View.ld_unit_zero (S := S4096x256) origin]
  funext j
  show k0_pay1 (F := Ideal) (tokenBlock m c t) (wordBlock m c t) j
    = product (tokenArr m c) (wordArr m c) (((cfg0.win 2).blk t).view.emb j)
  obtain ⟨h0, h1⟩ := result_index t j
  refine (payload_at (tokenBlock m c t) (wordBlock m c t) j).trans ?_
  rw [product_apply]
  unfold rowDotCol
  refine Finset.sum_congr rfl fun k _ => ?_
  rw [tokenBlock_apply m c t (j 0) k _ h0, wordBlock_apply m c t k (j 1) _ h1]

/-- An index of the result is in point `t`'s block iff each coordinate is in the block's range on its axis. -/
theorem mem_block (t : Fin cfg0.N) (i : S8192x4096.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v0).slice (win0_2.rect t)).set ↔ _
  rw [View.set_slice_whole, Rect.mem_set_unit]
  exact Iff.rfl

/-- Every index (r, c) of the result is in the block of the point (r / 512)·16 + c / 256, which writes back. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : grid0.N = 256 := N_0
  have hlt : (i 0).val / 512 * 16 + (i 1).val / 256 < cfg0.N := by show _ < grid0.N; omega
  obtain ⟨e20, e21, -, -, -, -⟩ := block_indices ⟨_, hlt⟩
  have ev : (⟨(i 0).val / 512 * 16 + (i 1).val / 256, hlt⟩ : Fin cfg0.N).val = (i 0).val / 512 * 16 + (i 1).val / 256 := rfl
  refine ⟨⟨_, hlt⟩, flush0_2 _, ?_⟩
  rw [mem_block]
  intro a
  match a with
  | ⟨0, _⟩ =>
    show win0_2.index ⟨_, hlt⟩ (0 : Fin 2) * 512 ≤ (i 0).val ∧ (i 0).val < win0_2.index ⟨_, hlt⟩ (0 : Fin 2) * 512 + 512
    omega
  | ⟨1, _⟩ =>
    show win0_2.index ⟨_, hlt⟩ (1 : Fin 2) * 256 ≤ (i 1).val ∧ (i 1).val < win0_2.index ⟨_, hlt⟩ (1 : Fin 2) * 256 + 256
    omega

/-- The result array after the run is the specification of the argument arrays as launched. -/
theorem final_is_product (c : Dev nD) :
    (dats m 0 c).arrAt 2 cfg0.N
      = product (m ((c : Thread nD τ).loc main_arg0)) (m ((c : Thread nD τ).loc main_arg1)) :=
  (dats m 0 c).arrAt_eq_of_cover 2 (product (tokenArr m c) (wordArr m c)) (fun t _ => flushed_is_block m c t) covered

/-- The kernel's run: it terminates without a fault with the result array at the specification and the arguments
    unchanged. -/
theorem run : θ_run defs (onTc (τ := τ) (main (F := Ideal))) ⟨m, fun _ => 0, ρ⟩ fun r => ∀ c : Dev nD,
      r.2.mem ((c : Thread nD τ).loc main_v0)
        = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_is_product m c), (h c).2⟩)
    (Cert.KernelIdeal.Value.run_blocks m ρ)

end Cert.KernelIdeal.WholeProduct

end
-- ==== Proof.lean ====
/-
  A dense layer with integer weights, computed block by block, against one whole matrix product.

  Both programs take a token matrix `x` (8192 × 4096 floats) and a weight matrix `W` (4096 × 4096 signed 32-bit
  integers) and return `x · W`, the weights read as numbers.

  The reference converts `W` to floats and takes one matrix product. The kernel walks a 16 × 16 grid; at point (i, j) it
  holds rows 512·i … 512·i + 511 of `x` and columns 256·j … 256·j + 255 of `W` — the shared axis whole in both — narrows
  the tokens' float format, converts the weight words to that narrower format, multiplies the two into a zero
  accumulator and writes the 512 × 256 product to block (i, j) of the result.

  At the exact values a change of float format is the identity and the conversion of an integer is that integer
  whatever the target format, and a product into a zero accumulator is the bare sum. So entry (r, c) of either
  result is  Σ_{k < 4096} x[r, k] · W[k, c]  (`Cert.IntWeightProduct.product`, Proof/Spec.lean), the same terms over
  the same index set; no distributivity or cancellation is used, hence nothing about the infinities, and the
  precondition is never opened.

  The pieces: Proof/ReferenceAsProduct.lean (the reference's result is `product`), Proof/KernelBlock.lean (the
  kernel body's result at a point is `rowDotCol` of its two blocks), Proof/KernelValue.lean (the blocks written at
  the 256 points tile the result, which therefore ends at `product`). The kernel's idealization rewrote no
  operation, so "the idealized kernel is the kernel's sanctioned idealization" has nothing to state.
-/
import proofs.«150332_j20306605376070_1_alg».proof.Defs
import proofs.«150332_j20306605376070_1_alg».proof.Proof.Gen.Kernel
import proofs.«150332_j20306605376070_1_alg».proof.Proof.Gen.Kernel.Skeleton
import proofs.«150332_j20306605376070_1_alg».proof.Proof.Gen.Kernel.Launch
import proofs.«150332_j20306605376070_1_alg».proof.Proof.Gen.Kernel.Points
import proofs.«150332_j20306605376070_1_alg».proof.Proof.Gen.Kernel.Frame
import proofs.«150332_j20306605376070_1_alg».proof.Proof.Gen.KernelIdeal
import proofs.«150332_j20306605376070_1_alg».proof.Proof.Gen.KernelIdeal.Skeleton
import proofs.«150332_j20306605376070_1_alg».proof.Proof.Gen.KernelIdeal.Launch
import proofs.«150332_j20306605376070_1_alg».proof.Proof.Gen.KernelIdeal.Points
import proofs.«150332_j20306605376070_1_alg».proof.Proof.Gen.KernelIdeal.Frame
import proofs.«150332_j20306605376070_1_alg».proof.Proof.Gen.ReferenceIdeal
import proofs.«150332_j20306605376070_1_alg».proof.Proof.Gen.Pre_finite_inputs
import proofs.«150332_j20306605376070_1_alg».proof.Proof.Gen.KernelIdeal.Value
import proofs.«150332_j20306605376070_1_alg».proof.Proof.Gen.ReferenceIdeal.Run
import proofs.«150332_j20306605376070_1_alg».proof.Proof.Gen.ReferenceIdeal.Read
import proofs.«150332_j20306605376070_1_alg».proof.Proof.Spec
import proofs.«150332_j20306605376070_1_alg».proof.Proof.ReferenceAsProduct
import proofs.«150332_j20306605376070_1_alg».proof.Proof.KernelBlock
import proofs.«150332_j20306605376070_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading at the exact values. -/
theorem frame_kernel_ideal : Cert.frame_KernelIdeal := fun m ρ _ => Cert.KernelIdeal.Gen.frame m ρ

/-- The reference is two host operations; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading at the exact values. -/
theorem preserves : Cert.preserves_Kernel_KernelIdeal := trivial

/-- From memories that agree on `x` and `W`, both programs end with the result at `product x W`: the kernel by the
    tiling of its blocks, the reference by reading its one matrix product at an index. -/
theorem algebraic : Cert.algebraic_KernelIdeal_ReferenceIdeal := by
  intro m ρ m' ρ' _ hagree
  refine ⟨fun c => Cert.IntWeightProduct.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.AsProduct.reference_is_product,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
